-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S256x256 : Shape := ⟨2, ![256, 256]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S256x256 .f32) (main_arg5 : FVec F S1024 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S256x256 .f32) (main_arg2 : FVec F S256x256 .f32) (main_arg3 : FVec F S256x256 .f32) (main_arg4 : FVec F S256x256 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S8x4096x1024 : Shape := ⟨3, ![8, 4096, 1024]⟩
abbrev S256x256 : Shape := ⟨2, ![256, 256]⟩
abbrev S1024 : Shape := ⟨1, ![1024]⟩
abbrev S4x4 : Shape := ⟨2, ![4, 4]⟩
abbrev S4x4x1x1 : Shape := ⟨4, ![4, 4, 1, 1]⟩
abbrev S1x1x256x256 : Shape := ⟨4, ![1, 1, 256, 256]⟩
abbrev S4x4x256x256 : Shape := ⟨4, ![4, 4, 256, 256]⟩
abbrev S4x256x4x256 : Shape := ⟨4, ![4, 256, 4, 256]⟩
abbrev S1024x1024 : Shape := ⟨2, ![1024, 1024]⟩
abbrev S32768x1024 : Shape := ⟨2, ![32768, 1024]⟩
abbrev S1x1024 : Shape := ⟨2, ![1, 1024]⟩

abbrev nBuf : Space → Nat
  | .hbm => 40
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1024, .f32⟩
  | .hbm, ⟨6, _⟩ => ⟨S4x4, .f32⟩
  | .hbm, ⟨7, _⟩ => ⟨S4x4, .f32⟩
  | .hbm, ⟨8, _⟩ => ⟨S4x4, .f32⟩
  | .hbm, ⟨9, _⟩ => ⟨S4x4, .f32⟩
  | .hbm, ⟨10, _⟩ => ⟨S4x4x1x1, .f32⟩
  | .hbm, ⟨11, _⟩ => ⟨S1x1x256x256, .f32⟩
  | .hbm, ⟨12, _⟩ => ⟨S4x4x256x256, .f32⟩
  | .hbm, ⟨13, _⟩ => ⟨S4x4x256x256, .f32⟩
  | .hbm, ⟨14, _⟩ => ⟨S4x4x256x256, .f32⟩
  | .hbm, ⟨15, _⟩ => ⟨S4x4x1x1, .f32⟩
  | .hbm, ⟨16, _⟩ => ⟨S1x1x256x256, .f32⟩
  | .hbm, ⟨17, _⟩ => ⟨S4x4x256x256, .f32⟩
  | .hbm, ⟨18, _⟩ => ⟨S4x4x256x256, .f32⟩
  | .hbm, ⟨19, _⟩ => ⟨S4x4x256x256, .f32⟩
  | .hbm, ⟨20, _⟩ => ⟨S4x4x256x256, .f32⟩
  | .hbm, ⟨21, _⟩ => ⟨S4x4x1x1, .f32⟩
  | .hbm, ⟨22, _⟩ => ⟨S1x1x256x256, .f32⟩
  | .hbm, ⟨23, _⟩ => ⟨S4x4x256x256, .f32⟩
  | .hbm, ⟨24, _⟩ => ⟨S4x4x256x256, .f32⟩
  | .hbm, ⟨25, _⟩ => ⟨S4x4x256x256, .f32⟩
  | .hbm, ⟨26, _⟩ => ⟨S4x4x256x256, .f32⟩
  | .hbm, ⟨27, _⟩ => ⟨S4x4x1x1, .f32⟩
  | .hbm, ⟨28, _⟩ => ⟨S1x1x256x256, .f32⟩
  | .hbm, ⟨29, _⟩ => ⟨S4x4x256x256, .f32⟩
  | .hbm, ⟨30, _⟩ => ⟨S4x4x256x256, .f32⟩
  | .hbm, ⟨31, _⟩ => ⟨S4x4x256x256, .f32⟩
  | .hbm, ⟨32, _⟩ => ⟨S4x4x256x256, .f32⟩
  | .hbm, ⟨33, _⟩ => ⟨S4x256x4x256, .f32⟩
  | .hbm, ⟨34, _⟩ => ⟨S1024x1024, .f32⟩
  | .hbm, ⟨35, _⟩ => ⟨S1024x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S4x4_S4x4x1x1_0_1 : S4x4.BroadcastsInDim S4x4x1x1 (![0, 1] : Fin 2 → Fin S4x4x1x1.rank)
  bcast_S256x256_S1x1x256x256_2_3 : S256x256.BroadcastsInDim S1x1x256x256 (![2, 3] : Fin 2 → Fin S1x1x256x256.rank)
  bcast_S4x4x1x1_S4x4x256x256_0_1_2_3 : S4x4x1x1.BroadcastsInDim S4x4x256x256 (![0, 1, 2, 3] : Fin 4 → Fin S4x4x256x256.rank)
  bcast_S1x1x256x256_S4x4x256x256_0_1_2_3 : S1x1x256x256.BroadcastsInDim S4x4x256x256 (![0, 1, 2, 3] : Fin 4 → Fin S4x4x256x256.rank)
  transposes_S4x4x256x256_S4x256x4x256_0_2_1_3 : S4x4x256x256.Transposes [0, 2, 1, 3] S4x256x4x256
  shapeCasts_S4x256x4x256_S1024x1024 : S4x256x4x256.ShapeCasts S1024x1024
  transposes_S1024x1024_S1024x1024_1_0 : S1024x1024.Transposes [1, 0] S1024x1024
  shapeCasts_S8x4096x1024_S32768x1024 : S8x4096x1024.ShapeCasts S32768x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v26) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S256x256 : Shape := ⟨2, ![256, 256]⟩
abbrev S1024 : Shape := ⟨1, ![1024]⟩
abbrev S4x4 : Shape := ⟨2, ![4, 4]⟩
abbrev S4x4x1x1 : Shape := ⟨4, ![4, 4, 1, 1]⟩
abbrev S1x1x256x256 : Shape := ⟨4, ![1, 1, 256, 256]⟩
abbrev S4x4x256x256 : Shape := ⟨4, ![4, 4, 256, 256]⟩
abbrev S4x256x4x256 : Shape := ⟨4, ![4, 256, 4, 256]⟩
abbrev S1024x1024 : Shape := ⟨2, ![1024, 1024]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S1024, .f32⟩
  | .hbm, ⟨6, _⟩ => ⟨S4x4, .f32⟩
  | .hbm, ⟨7, _⟩ => ⟨S4x4, .f32⟩
  | .hbm, ⟨8, _⟩ => ⟨S4x4, .f32⟩
  | .hbm, ⟨9, _⟩ => ⟨S4x4, .f32⟩
  | .hbm, ⟨10, _⟩ => ⟨S4x4x1x1, .f32⟩
  | .hbm, ⟨11, _⟩ => ⟨S1x1x256x256, .f32⟩
  | .hbm, ⟨12, _⟩ => ⟨S4x4x256x256, .f32⟩
  | .hbm, ⟨13, _⟩ => ⟨S4x4x256x256, .f32⟩
  | .hbm, ⟨14, _⟩ => ⟨S4x4x256x256, .f32⟩
  | .hbm, ⟨15, _⟩ => ⟨S4x4x1x1, .f32⟩
  | .hbm, ⟨16, _⟩ => ⟨S1x1x256x256, .f32⟩
  | .hbm, ⟨17, _⟩ => ⟨S4x4x256x256, .f32⟩
  | .hbm, ⟨18, _⟩ => ⟨S4x4x256x256, .f32⟩
  | .hbm, ⟨19, _⟩ => ⟨S4x4x256x256, .f32⟩
  | .hbm, ⟨20, _⟩ => ⟨S4x4x256x256, .f32⟩
  | .hbm, ⟨21, _⟩ => ⟨S4x4x1x1, .f32⟩
  | .hbm, ⟨22, _⟩ => ⟨S1x1x256x256, .f32⟩
  | .hbm, ⟨23, _⟩ => ⟨S4x4x256x256, .f32⟩
  | .hbm, ⟨24, _⟩ => ⟨S4x4x256x256, .f32⟩
  | .hbm, ⟨25, _⟩ => ⟨S4x4x256x256, .f32⟩
  | .hbm, ⟨26, _⟩ => ⟨S4x4x256x256, .f32⟩
  | .hbm, ⟨27, _⟩ => ⟨S4x4x1x1, .f32⟩
  | .hbm, ⟨28, _⟩ => ⟨S1x1x256x256, .f32⟩
  | .hbm, ⟨29, _⟩ => ⟨S4x4x256x256, .f32⟩
  | .hbm, ⟨30, _⟩ => ⟨S4x4x256x256, .f32⟩
  | .hbm, ⟨31, _⟩ => ⟨S4x4x256x256, .f32⟩
  | .hbm, ⟨32, _⟩ => ⟨S4x4x256x256, .f32⟩
  | .hbm, ⟨33, _⟩ => ⟨S4x256x4x256, .f32⟩
  | .hbm, ⟨34, _⟩ => ⟨S1024x1024, .f32⟩
  | .hbm, ⟨35, _⟩ => ⟨S8x4096x1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S4x4_S4x4x1x1_0_1 : S4x4.BroadcastsInDim S4x4x1x1 (![0, 1] : Fin 2 → Fin S4x4x1x1.rank)
  bcast_S256x256_S1x1x256x256_2_3 : S256x256.BroadcastsInDim S1x1x256x256 (![2, 3] : Fin 2 → Fin S1x1x256x256.rank)
  bcast_S4x4x1x1_S4x4x256x256_0_1_2_3 : S4x4x1x1.BroadcastsInDim S4x4x256x256 (![0, 1, 2, 3] : Fin 4 → Fin S4x4x256x256.rank)
  bcast_S1x1x256x256_S4x4x256x256_0_1_2_3 : S1x1x256x256.BroadcastsInDim S4x4x256x256 (![0, 1, 2, 3] : Fin 4 → Fin S4x4x256x256.rank)
  transposes_S4x4x256x256_S4x256x4x256_0_2_1_3 : S4x4x256x256.Transposes [0, 2, 1, 3] S4x256x4x256
  shapeCasts_S4x256x4x256_S1024x1024 : S4x256x4x256.ShapeCasts S1024x1024
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf

class Facts : Prop extends Facts₀ where

variable [Facts]
-- ==== Proof.KerBlock.lean ====
/-
  The kernel body's stored value, read entry by entry. The body loads a 1024-row block of x, the whole transposed
  weight and the bias row, multiplies the first two (their bf16 roundings are the identity over the extended reals)
  into a zero accumulator and adds the bias row spread down the rows: entry (r, c) of what it stores is the sum over k
  of xblock[r, k] wt[k, c], plus biasrow[0, c].
-/
import proofs.«165513_j24223615550298_1_alg».proof.Proof.Gen.KernelIdeal.Skeleton
import Idealize.ShloMosaic.PureOps.Ideal.Laws
import Idealize.ShloMosaic.Lib.Pipeline.Value
import Idealize.ShloMosaic.Lib.ValueLayout

noncomputable section

namespace Cert.KernelIdeal.Body

open Cert.KernelIdeal Cert.KernelIdeal.Facts₀ Cert.KernelIdeal.Gen Idealize.ShloMosaic Idealize.ShloMosaic.ValueIdx

/-- Left operand, axis 0: the result's row. -/
theorem lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- Left operand, axis 1: the contracted coordinate. -/
theorem lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- Right operand, axis 0: the contracted coordinate. -/
theorem rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- Right operand, axis 1: the result's column. -/
theorem rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator at (r, c): the sum over k of a[r, k] b[k, c]. -/
theorem product_apply (a b : FVec Ideal S1024x1024 .bf16) (r c : Fin 1024) :
    matmul dot_S1024x1024_S1024x1024_S1024x1024_1_0_0_1_n_n none a b (constant (F := Ideal) S1024x1024 .f32 0x00000000#32) (ix2 r c)
      = ∑ k : Fin 1024, a (ix2 r k) * b (ix2 k c) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 r c) ((contrEquiv1 dot_S1024x1024_S1024x1024_S1024x1024_1_0_0_1_n_n 1024 rfl rfl).symm k) = ix2 r k := funext fun a => Fin.ext (by
    match a with
    | ⟨0, _⟩ => exact lhs_0 _ _
    | ⟨1, _⟩ => exact (lhs_1 _ _).trans hk)
  have er : dot_S1024x1024_S1024x1024_S1024x1024_1_0_0_1_n_n.rhsIdx (ix2 r c) ((contrEquiv1 dot_S1024x1024_S1024x1024_S1024x1024_1_0_0_1_n_n 1024 rfl rfl).symm k) = ix2 k c := funext fun a => Fin.ext (by
    match a with
    | ⟨0, _⟩ => exact (rhs_0 _ _).trans hk
    | ⟨1, _⟩ => exact rhs_1 _ _)
  rw [el, er]

/-- The body's stored value at (r, c), from the three loaded blocks. -/
theorem stored_apply (x0 x1 : Vec Ideal S1024x1024 .f32) (x2 : Vec Ideal S1x1024 .f32) (r c : Fin 1024) :
    k0_pay1 (F := Ideal) x0 x1 x2 (ix2 r c) = (∑ k : Fin 1024, x0 (ix2 r k) * x1 (ix2 k c)) + x2 (ix2 (0 : Fin 1) c) := by
  unfold k0_pay1
  refine (addf_apply _ _ _).trans ?_
  rw [product_apply, broadcastTo_1b_ab_apply]
  simp only [shapeCast_self, truncf_apply]

end Cert.KernelIdeal.Body

end
-- ==== Proof.KerArray.lean ====
/-
  The array the region leaves. The grid has 32 points; point t stages rows 1024 t … 1024 t + 1023 of the reshaped x,
  the whole transposed weight and the bias row, and writes its block of the result back to the same rows. What it
  writes is the restriction to those rows of ONE function of the three staged arrays — entry (r, c) the sum over k of
  X[r, k] WT[k, c], plus B[0, c] — and the 32 blocks tile the result, so after the run the result array is that function.
-/
import proofs.«165513_j24223615550298_1_alg».proof.Proof.Gen.KernelIdeal.Frame
import proofs.«165513_j24223615550298_1_alg».proof.Proof.KerBlock

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Entry (r, c) of the region's result, from the three arrays it stages. -/
def rowLinAt (X : S32768x1024.Idx → EReal) (WT : S1024x1024.Idx → EReal) (B : S1x1024.Idx → EReal) (r : Fin 32768) (c : Fin 1024) : EReal :=
  (∑ k : Fin 1024, X (ix2 r k) * WT (ix2 k c)) + B (ix2 (0 : Fin 1) c)

/-- The region's result as one array. -/
def rowLin (X : S32768x1024.Idx → EReal) (WT : S1024x1024.Idx → EReal) (B : S1x1024.Idx → EReal) : S32768x1024.Idx → EReal :=
  fun i => rowLinAt X WT B (i 0) (i 1)

theorem rowLin_ix2 (X : S32768x1024.Idx → EReal) (WT : S1024x1024.Idx → EReal) (B : S1x1024.Idx → EReal) (r : Fin 32768) (c : Fin 1024) :
    rowLin X WT B (ix2 r c) = rowLinAt X WT B r c := rfl

/-- The index maps over the grid: x's window and the result's move down one block of rows per point; the weight's
    and the bias's stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-- Point t's block of x: row r of the block is row 1024 t + r of the array. -/
theorem read_x (c : Dev nD) (t : Fin cfg0.N) (r k : Fin 1024) (R : Fin 32768) (hR : R.val = t.val * 1024 + r.val) :
    iblk m c 0 t (ix2 r k) = V m c main_v26 (ix2 R k) := by
  obtain ⟨e00, e01, -⟩ := idx_facts t
  show V m c main_v26 (((cfg0.win 0).blk t).view.emb (ix2 r k)) = V m c main_v26 (ix2 R k)
  refine congrArg _ (funext fun a => Fin.ext ?_)
  match a with
  | ⟨0, _⟩ => show win0_0.index t (0 : Fin 2) * 1024 + 1 * r.val = R.val; omega
  | ⟨1, _⟩ => show win0_0.index t (1 : Fin 2) * 1024 + 1 * k.val = k.val; omega

/-- The weight's block is the whole transposed weight. -/
theorem read_wt (c : Dev nD) (t : Fin cfg0.N) (k cc : Fin 1024) :
    iblk m c 1 t (ix2 k cc) = V m c main_v25 (ix2 k cc) := by
  obtain ⟨-, -, e10, e11, -⟩ := idx_facts t
  show V m c main_v25 (((cfg0.win 1).blk t).view.emb (ix2 k cc)) = V m c main_v25 (ix2 k cc)
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * cc.val = cc.val; omega

/-- The bias's block is the whole bias row. -/
theorem read_bias (c : Dev nD) (t : Fin cfg0.N) (cc : Fin 1024) :
    iblk m c 2 t (ix2 (0 : Fin 1) cc) = V m c main_v27 (ix2 (0 : Fin 1) cc) := by
  obtain ⟨-, -, -, -, e20, e21, -⟩ := idx_facts t
  show V m c main_v27 (((cfg0.win 2).blk t).view.emb (ix2 (0 : Fin 1) cc)) = V m c main_v27 (ix2 (0 : Fin 1) cc)
  refine congrArg _ (funext fun a => Fin.ext ?_)
  match a with
  | ⟨0, _⟩ => show win0_2.index t (0 : Fin 2) * 1 + 1 * 0 = 0; omega
  | ⟨1, _⟩ => show win0_2.index t (1 : Fin 2) * 1024 + 1 * cc.val = cc.val; omega

/-- What point t writes back is block t of the region's result function of the staged arrays. -/
theorem flushed_eq (c : Dev nD) (t : Fin cfg0.N) :
    (dats m 0 c).flushed 3 t
      = ((cfg0.win 3).blk t).view.read (Elt Ideal) (rowLin (V m c main_v26) (V m c main_v25) (V m c main_v27)) := by
  show (cfg0.win 3).cut (grid0.coords t) ((dats m 0 c).after 3 t) = _
  rw [after0_3]
  unfold out0_3
  rw [View.canon_unit_zero zero_offsets]
  simp only [View.ld_unit_zero (S := S1024x1024) zero_offsets, View.ld_unit_zero (S := S1x1024) zero_offsets]
  obtain ⟨-, -, -, -, -, -, e30, e31⟩ := idx_facts t
  have ht := point_lt t
  funext j
  have hj0 : (j 0).val < 1024 := (j 0).isLt
  have hj1 : (j 1).val < 1024 := (j 1).isLt
  have hx : (cfg0.win 3).xinj (grid0.coords t) j = ix2 (⟨(j 0).val, hj0⟩ : Fin 1024) (⟨(j 1).val, hj1⟩ : Fin 1024) := by
    funext a
    match a with
    | ⟨0, _⟩ => rfl
    | ⟨1, _⟩ => rfl
  have hi : ((cfg0.win 3).blk t).view.emb j = ix2 (⟨t.val * 1024 + (j 0).val, by omega⟩ : Fin 32768) (⟨(j 1).val, hj1⟩ : Fin 1024) := by
    funext a; apply Fin.ext
    match a with
    | ⟨0, _⟩ => show win0_3.index t (0 : Fin 2) * 1024 + 1 * (j 0).val = t.val * 1024 + (j 0).val; omega
    | ⟨1, _⟩ => show win0_3.index t (1 : Fin 2) * 1024 + 1 * (j 1).val = (j 1).val; omega
  show k0_pay1 (F := Ideal) (iblk m c 0 t) (iblk m c 1 t) (iblk m c 2 t) ((cfg0.win 3).xinj (grid0.coords t) j)
    = rowLin (V m c main_v26) (V m c main_v25) (V m c main_v27) (((cfg0.win 3).blk t).view.emb j)
  rw [hx, hi, rowLin_ix2]
  refine (Body.stored_apply (iblk m c 0 t) (iblk m c 1 t) (iblk m c 2 t) ⟨(j 0).val, hj0⟩ ⟨(j 1).val, hj1⟩).trans ?_
  unfold rowLinAt
  rw [read_bias m c t ⟨(j 1).val, hj1⟩]
  refine congrArg (· + _) (Finset.sum_congr rfl fun k _ => ?_)
  rw [read_x m c t ⟨(j 0).val, hj0⟩ k ⟨t.val * 1024 + (j 0).val, by omega⟩ rfl, read_wt m c t k ⟨(j 1).val, hj1⟩]

/-- An index of the result is in point t's block iff each coordinate is in the block's range on its axis. -/
theorem mem_blk (t : Fin cfg0.N) (i : S32768x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v28).slice (win0_3.rect t)).set ↔ _
  rw [View.set_slice_whole, Rect.mem_set_unit]
  exact Iff.rfl

/-- Every index of the result lies in the block of the point its row's 1024-block names. -/
theorem cover (i : S32768x1024.Idx) : ∃ t : Fin cfg0.N, (cfg0.win 3).flush t = true ∧ i ∈ ((cfg0.win 3).blk t).view.set := by
  have hi0 : (i 0).val < 32768 := (i 0).isLt
  have hi1 : (i 1).val < 1024 := (i 1).isLt
  have hN : (i 0).val / 1024 < cfg0.N := lt_of_lt_of_eq (by omega : (i 0).val / 1024 < 32) N_0.symm
  obtain ⟨-, -, -, -, -, -, e30, e31⟩ := idx_facts ⟨(i 0).val / 1024, hN⟩
  refine ⟨⟨(i 0).val / 1024, hN⟩, flush0_3 _, ?_⟩
  rw [mem_blk]
  intro a
  match a with
  | ⟨0, _⟩ =>
    show win0_3.index ⟨(i 0).val / 1024, hN⟩ (0 : Fin 2) * 1024 ≤ (i 0).val ∧ (i 0).val < win0_3.index ⟨(i 0).val / 1024, hN⟩ (0 : Fin 2) * 1024 + 1024
    have e : win0_3.index ⟨(i 0).val / 1024, hN⟩ (0 : Fin 2) = (i 0).val / 1024 := e30
    omega
  | ⟨1, _⟩ =>
    show win0_3.index ⟨(i 0).val / 1024, hN⟩ (1 : Fin 2) * 1024 ≤ (i 1).val ∧ (i 1).val < win0_3.index ⟨(i 0).val / 1024, hN⟩ (1 : Fin 2) * 1024 + 1024
    omega

/-- After the run the result's array is the region's result function of the staged arrays. -/
theorem final (c : Dev nD) :
    (dats m 0 c).arrAt 3 cfg0.N = rowLin (V m c main_v26) (V m c main_v25) (V m c main_v27) :=
  (dats m 0 c).arrAt_eq_of_cover 3 _ (fun t _ => flushed_eq m c t) cover

end Cert.KernelIdeal.Region

end
-- ==== Proof.Weight.lean ====
/-
  The quaternion weight and the linear map, as functions of the argument arrays.

  Both programs assemble one 1024 x 1024 matrix W from four 256 x 256 blocks R, I, J, K and four 4 x 4 sign tables
  A1, AI, AJ, AK: the 4 x 4 x 256 x 256 array  A1[a,b] R[p,q] + AI[a,b] I[p,q] + AJ[a,b] J[p,q] + AK[a,b] K[p,q],
  its two middle axes exchanged and the result read as 1024 x 1024 (row 256 a + p, column 256 b + q). Neither proof
  ever opens W: `weight` is stated once, and each program's chain of host operations is shown to be it.

  The result both programs compute is, at (b, s, o),  sum over k of x[b, s, k] W[o, k], plus bias[o]: `lin`.
-/
import Idealize.ShloMosaic.PureOps.Ideal
import Idealize.ShloMosaic.Lib.ValueIdx

noncomputable section

namespace Cert.QuatLinear

open Idealize.ShloMosaic Idealize.ShloMosaic.ValueIdx

abbrev Sx : Shape := ⟨3, ![8, 4096, 1024]⟩
abbrev Sw : Shape := ⟨2, ![1024, 1024]⟩
abbrev Sb : Shape := ⟨1, ![1024]⟩
abbrev Sq : Shape := ⟨2, ![256, 256]⟩
abbrev S44 : Shape := ⟨2, ![4, 4]⟩
abbrev S4411 : Shape := ⟨4, ![4, 4, 1, 1]⟩
abbrev S11qq : Shape := ⟨4, ![1, 1, 256, 256]⟩
abbrev S44qq : Shape := ⟨4, ![4, 4, 256, 256]⟩
abbrev S4q4q : Shape := ⟨4, ![4, 256, 4, 256]⟩

section
variable {F : FTy → Type} [FloatOps F]

/-- One signed term of the block grid: the sign table `A` spread over the block axes times the block `B` spread over
    the grid axes, entry (a, b, p, q) being A[a, b] B[p, q]. -/
def signedBlock (h1 : S44.BroadcastsInDim S4411 (![0, 1] : Fin 2 → Fin S4411.rank))
    (h2 : Sq.BroadcastsInDim S11qq (![2, 3] : Fin 2 → Fin S11qq.rank))
    (h3 : S4411.BroadcastsInDim S44qq (![0, 1, 2, 3] : Fin 4 → Fin S44qq.rank))
    (h4 : S11qq.BroadcastsInDim S44qq (![0, 1, 2, 3] : Fin 4 → Fin S44qq.rank))
    (A : FVec F S44 .f32) (B : FVec F Sq .f32) : FVec F S44qq .f32 :=
  mulf (broadcastInDim S44qq ![0, 1, 2, 3] h3 (broadcastInDim S4411 ![0, 1] h1 A))
    (broadcastInDim S44qq ![0, 1, 2, 3] h4 (broadcastInDim S11qq ![2, 3] h2 B))

/-- The assembled weight: the four signed terms added in the order both programs add them, the grid's column axis and
    the block's row axis exchanged, read as a 1024 x 1024 matrix. -/
def weight (h1 : S44.BroadcastsInDim S4411 (![0, 1] : Fin 2 → Fin S4411.rank))
    (h2 : Sq.BroadcastsInDim S11qq (![2, 3] : Fin 2 → Fin S11qq.rank))
    (h3 : S4411.BroadcastsInDim S44qq (![0, 1, 2, 3] : Fin 4 → Fin S44qq.rank))
    (h4 : S11qq.BroadcastsInDim S44qq (![0, 1, 2, 3] : Fin 4 → Fin S44qq.rank))
    (h5 : S44qq.Transposes [0, 2, 1, 3] S4q4q) (h6 : S4q4q.ShapeCasts Sw)
    (A1 AI AJ AK : FVec F S44 .f32) (R I J K : FVec F Sq .f32) : FVec F Sw .f32 :=
  shapeCast Sw (transpose S4q4q [0, 2, 1, 3]
    (addf (addf (addf (signedBlock h1 h2 h3 h4 A1 R) (signedBlock h1 h2 h3 h4 AI I)) (signedBlock h1 h2 h3 h4 AJ J))
      (signedBlock h1 h2 h3 h4 AK K)) h5) h6

end

/-- One entry of the linear layer over the extended reals: at batch `p`, position `q`, output feature `o`, the sum over the
    input features k of x[p, q, k] W[o, k], plus bias[o]. -/
def linAt (x : FVec Ideal Sx .f32) (W : FVec Ideal Sw .f32) (b : FVec Ideal Sb .f32) (p : Fin 8) (q : Fin 4096) (o : Fin 1024) : EReal :=
  (∑ k : Fin 1024, x (ix3 p q k) * W (ix2 o k)) + b (ix1 o)

/-- The linear layer as an array: entry i is `linAt` at i's three coordinates. -/
def lin (x : FVec Ideal Sx .f32) (W : FVec Ideal Sw .f32) (b : FVec Ideal Sb .f32) : FVec Ideal Sx .f32 :=
  fun i => linAt x W b (i 0) (i 1) (i 2)

end Cert.QuatLinear

end
-- ==== Proof.KerValue.lean ====
/-
  The kernel program's result. Before the region the host reshapes x to 32768 rows, assembles the weight and
  transposes it, and gives the bias a leading unit axis; after the region it reshapes the 32768 x 1024 result back to
  8 x 4096 x 1024. Row 4096 p + q of the reshaped x is x[p, q, ·], column o of the transposed weight is row o of the
  weight, so the reshaped region result at (p, q, o) is the linear layer's entry.
-/
import proofs.«165513_j24223615550298_1_alg».proof.Proof.KerArray
import proofs.«165513_j24223615550298_1_alg».proof.Proof.Weight
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.ValueIdx
open Idealize.ShloMosaic.Pipeline (Dat)

/-- The weight the kernel program assembles from its four blocks and its four sign tables. -/
abbrev kerWeight {F : FTy → Type} [FloatOps F] (R I J K : FVec F S256x256 .f32) : FVec F S1024x1024 .f32 :=
  Cert.QuatLinear.weight Facts₀.bcast_S4x4_S4x4x1x1_0_1 Facts₀.bcast_S256x256_S1x1x256x256_2_3 Facts₀.bcast_S4x4x1x1_S4x4x256x256_0_1_2_3
    Facts₀.bcast_S1x1x256x256_S4x4x256x256_0_1_2_3 Facts₀.transposes_S4x4x256x256_S4x256x4x256_0_2_1_3 Facts₀.shapeCasts_S4x256x4x256_S1024x1024
    (fun i => FloatOps.ofBits .f32 (lit0 (S4x4.rowMajor i))) (fun i => FloatOps.ofBits .f32 (lit1 (S4x4.rowMajor i)))
    (fun i => FloatOps.ofBits .f32 (lit2 (S4x4.rowMajor i))) (fun i => FloatOps.ofBits .f32 (lit3 (S4x4.rowMajor i))) R I J K

/-- The reshaped region result at (p, q, o) is the linear layer's entry: row 4096 p + q of the reshaped x is
    x[p, q, ·], the transposed weight at (k, o) is the weight at (o, k), the bias row at (0, o) is bias[o]. -/
theorem reshape_rowLin (x : FVec Ideal S8x4096x1024 .f32) (W : FVec Ideal S1024x1024 .f32) (b : FVec Ideal S1024 .f32) :
    shapeCast S8x4096x1024 (Region.rowLin (shapeCast S32768x1024 x Facts₀.shapeCasts_S8x4096x1024_S32768x1024)
        (transpose S1024x1024 [1, 0] W Facts₀.transposes_S1024x1024_S1024x1024_1_0) (shapeCast S1x1024 b Facts₀.shapeCasts_S1024_S1x1024))
      Facts₀.shapeCasts_S32768x1024_S8x4096x1024
      = Cert.QuatLinear.lin x W b := by
  funext i
  obtain ⟨p, q, o, rfl⟩ : ∃ (p : Fin 8) (q : Fin 4096) (o : Fin 1024), i = ix3 p q o := ⟨i 0, i 1, i 2, eq_ix3 i⟩
  have hR : p.val * 4096 + q.val < 32768 := by omega
  refine (shapeCast_apply _ _ (ix3 p q o) (ix2 (⟨p.val * 4096 + q.val, hR⟩ : Fin 32768) o) (by
    rw [Shape.rowMajor_val_two, Shape.rowMajor_val_three]
    rfl)).trans ?_
  rw [Region.rowLin_ix2]
  show _ = Cert.QuatLinear.linAt x W b p q o
  unfold Region.rowLinAt Cert.QuatLinear.linAt
  rw [shapeCast_a_1a_apply]
  refine congrArg (· + _) (Finset.sum_congr rfl fun k _ => ?_)
  rw [shapeCast_apply x _ (ix2 (⟨p.val * 4096 + q.val, hR⟩ : Fin 32768) k) (ix3 p q k) (by
      rw [Shape.rowMajor_val_two, Shape.rowMajor_val_three]
      rfl),
    transpose_apply [1, 0] W _ (ix2 k o) (ix2 o k) (fun a => by
      match a with
      | ⟨0, _⟩ => rfl
      | ⟨1, _⟩ => rfl)]

variable (m : (ℓ : Loc nD τ sig) → Buf (Elt Ideal) ℓ) (ρ : Dev nD → PrngReg)

/-- The region finds x reshaped to 32768 rows. -/
theorem V_x (c : Dev nD) : (V m c main_v26 : S32768x1024.Idx → EReal)
    = shapeCast S32768x1024 (m ((c.tc : Thread nD τ).loc main_arg0)) Facts₀.shapeCasts_S8x4096x1024_S32768x1024 := by
  show StableHlo.after hostOps0 (fun b => m (c, b)) (Proc.devRef .tc main_v26) = _
  after_results
  rfl

/-- The region finds the assembled weight, transposed. -/
theorem V_wt (c : Dev nD) : (V m c main_v25 : S1024x1024.Idx → EReal)
    = transpose S1024x1024 [1, 0] (kerWeight (F := Ideal) (m ((c.tc : Thread nD τ).loc main_arg1)) (m ((c.tc : Thread nD τ).loc main_arg2))
        (m ((c.tc : Thread nD τ).loc main_arg3)) (m ((c.tc : Thread nD τ).loc main_arg4))) Facts₀.transposes_S1024x1024_S1024x1024_1_0 := by
  show StableHlo.after hostOps0 (fun b => m (c, b)) (Proc.devRef .tc main_v25) = _
  after_results_simp
  rfl

/-- The region finds the bias as one row. -/
theorem V_bias (c : Dev nD) : (V m c main_v27 : S1x1024.Idx → EReal)
    = shapeCast S1x1024 (m ((c.tc : Thread nD τ).loc main_arg5)) Facts₀.shapeCasts_S1024_S1x1024 := by
  show StableHlo.after hostOps0 (fun b => m (c, b)) (Proc.devRef .tc main_v27) = _
  after_results
  rfl

/-- The line after the region reshapes the region's result array. -/
theorem tail_eq (c : Dev nD) :
    Pipeline.afterTail₀ cfgs (dats m) 0 (V0 m) [hostOps1] c main_v29
      = shapeCast S8x4096x1024 ((dats m 0 c).arrAt 3 cfg0.N) Facts₀.shapeCasts_S32768x1024_S8x4096x1024 := by
  unfold Pipeline.afterTail₀
  show StableHlo.after hostOps1 _ (Proc.devRef .tc main_v29) = _
  after_results
  exact congrArg (fun X => shapeCast S8x4096x1024 X Facts₀.shapeCasts_S32768x1024_S8x4096x1024)
    (Pipeline.withArrays_arr (cfgs 0).spec winFacts0.arr_inj c (V0 m c) (fun w => (dats m 0 c).arrAt w (cfgs 0).N) 3)

/-- The kernel program's result buffer after the run: the linear layer of the arguments over the kernel's weight. -/
theorem result_eq (c : Dev nD) :
    Pipeline.afterTail₀ cfgs (dats m) 0 (V0 m) [hostOps1] c main_v29
      = Cert.QuatLinear.lin (m ((c.tc : Thread nD τ).loc main_arg0))
          (kerWeight (F := Ideal) (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg5)) := by
  rw [tail_eq, Region.final, V_x, V_wt, V_bias]
  exact reshape_rowLin _ _ _

/-- Every weakly fair execution of the kernel program terminates with the result buffer at the linear layer of the
    arguments and the arguments unchanged. -/
theorem run : θ_run defs (onTc (τ := τ) (main (F := Ideal))) ⟨m, fun _ => 0, ρ⟩ fun r => ∀ c : Dev nD,
      r.2.mem ((c.tc : Thread nD τ).loc main_v29) = Cert.QuatLinear.lin (m ((c.tc : Thread nD τ).loc main_arg0))
          (kerWeight (F := Ideal) (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).2 main_v29 (Pipeline.mem_restRefs_of main_v29 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Result

end
-- ==== Proof.RefRun.lean ====
/-
  The reference program run: its @main is a straight line of 33 host operations, so every weakly fair execution
  terminates with each buffer at the operations' composed value of the launch contents. The result buffer holds the
  contraction of x's last axis against the assembled weight's column axis, plus the bias spread over batch and sequence;
  the arguments are never written.
-/
import proofs.«165513_j24223615550298_1_alg».proof.Proof.Gen.ReferenceIdeal
import proofs.«165513_j24223615550298_1_alg».proof.Proof.Weight
import Idealize.ShloMosaic.Lib.StableHlo.Run

noncomputable section

namespace Cert.ReferenceIdeal.HostRun

open Cert.ReferenceIdeal Cert.ReferenceIdeal.Facts₀ Idealize.ShloMosaic Idealize.ShloMosaic.TcCoe Idealize.SL.Sem Idealize.ShloMosaic.StableHlo

variable {F : FTy → Type} [FloatOps F]

/-- @main's operations, in order. -/
abbrev ops : List (HloOp τ sig (Elt F)) :=
  [
    StableHlo.nullary main_cst (fun i => FloatOps.ofBits .f32 (lit0 (S4x4.rowMajor i))),
    StableHlo.nullary main_cst_0 (fun i => FloatOps.ofBits .f32 (lit1 (S4x4.rowMajor i))),
    StableHlo.nullary main_cst_1 (fun i => FloatOps.ofBits .f32 (lit2 (S4x4.rowMajor i))),
    StableHlo.nullary main_cst_2 (fun i => FloatOps.ofBits .f32 (lit3 (S4x4.rowMajor i))),
    StableHlo.unary main_cst main_v0 (broadcastInDim S4x4x1x1 ![0, 1] bcast_S4x4_S4x4x1x1_0_1 : (⟨S4x4, .f32⟩ : BufTy).Contents (Elt F) → (⟨S4x4x1x1, .f32⟩ : BufTy).Contents (Elt F)),
    StableHlo.unary main_arg1 main_v1 (broadcastInDim S1x1x256x256 ![2, 3] bcast_S256x256_S1x1x256x256_2_3 : (⟨S256x256, .f32⟩ : BufTy).Contents (Elt F) → (⟨S1x1x256x256, .f32⟩ : BufTy).Contents (Elt F)),
    StableHlo.unary main_v0 main_v2 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    StableHlo.unary main_v1 main_v3 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    StableHlo.binary main_v2 main_v3 main_v4 (mulf : (⟨S4x4x256x256, .f32⟩ : BufTy).Contents (Elt F) → (⟨S4x4x256x256, .f32⟩ : BufTy).Contents (Elt F) → (⟨S4x4x256x256, .f32⟩ : BufTy).Contents (Elt F)),
    StableHlo.unary main_cst_0 main_v5 (broadcastInDim S4x4x1x1 ![0, 1] bcast_S4x4_S4x4x1x1_0_1 : (⟨S4x4, .f32⟩ : BufTy).Contents (Elt F) → (⟨S4x4x1x1, .f32⟩ : BufTy).Contents (Elt F)),
    StableHlo.unary main_arg2 main_v6 (broadcastInDim S1x1x256x256 ![2, 3] bcast_S256x256_S1x1x256x256_2_3 : (⟨S256x256, .f32⟩ : BufTy).Contents (Elt F) → (⟨S1x1x256x256, .f32⟩ : BufTy).Contents (Elt F)),
    StableHlo.unary main_v5 main_v7 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    StableHlo.unary main_v6 main_v8 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    StableHlo.binary main_v7 main_v8 main_v9 (mulf : (⟨S4x4x256x256, .f32⟩ : BufTy).Contents (Elt F) → (⟨S4x4x256x256, .f32⟩ : BufTy).Contents (Elt F) → (⟨S4x4x256x256, .f32⟩ : BufTy).Contents (Elt F)),
    StableHlo.binary main_v4 main_v9 main_v10 (addf : (⟨S4x4x256x256, .f32⟩ : BufTy).Contents (Elt F) → (⟨S4x4x256x256, .f32⟩ : BufTy).Contents (Elt F) → (⟨S4x4x256x256, .f32⟩ : BufTy).Contents (Elt F)),
    StableHlo.unary main_cst_1 main_v11 (broadcastInDim S4x4x1x1 ![0, 1] bcast_S4x4_S4x4x1x1_0_1 : (⟨S4x4, .f32⟩ : BufTy).Contents (Elt F) → (⟨S4x4x1x1, .f32⟩ : BufTy).Contents (Elt F)),
    StableHlo.unary main_arg3 main_v12 (broadcastInDim S1x1x256x256 ![2, 3] bcast_S256x256_S1x1x256x256_2_3 : (⟨S256x256, .f32⟩ : BufTy).Contents (Elt F) → (⟨S1x1x256x256, .f32⟩ : BufTy).Contents (Elt F)),
    StableHlo.unary main_v11 main_v13 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    StableHlo.unary main_v12 main_v14 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    StableHlo.binary main_v13 main_v14 main_v15 (mulf : (⟨S4x4x256x256, .f32⟩ : BufTy).Contents (Elt F) → (⟨S4x4x256x256, .f32⟩ : BufTy).Contents (Elt F) → (⟨S4x4x256x256, .f32⟩ : BufTy).Contents (Elt F)),
    StableHlo.binary main_v10 main_v15 main_v16 (addf : (⟨S4x4x256x256, .f32⟩ : BufTy).Contents (Elt F) → (⟨S4x4x256x256, .f32⟩ : BufTy).Contents (Elt F) → (⟨S4x4x256x256, .f32⟩ : BufTy).Contents (Elt F)),
    StableHlo.unary main_cst_2 main_v17 (broadcastInDim S4x4x1x1 ![0, 1] bcast_S4x4_S4x4x1x1_0_1 : (⟨S4x4, .f32⟩ : BufTy).Contents (Elt F) → (⟨S4x4x1x1, .f32⟩ : BufTy).Contents (Elt F)),
    StableHlo.unary main_arg4 main_v18 (broadcastInDim S1x1x256x256 ![2, 3] bcast_S256x256_S1x1x256x256_2_3 : (⟨S256x256, .f32⟩ : BufTy).Contents (Elt F) → (⟨S1x1x256x256, .f32⟩ : BufTy).Contents (Elt F)),
    StableHlo.unary main_v17 main_v19 (broadcastInDim S4x4x256x256 ![0, 1, 2, 3] bcast_S4x4x1x1_S4x4x256x256_0_1_2_3 : (⟨S4x4x1x1, .f32⟩ : BufTy).Contents (Elt F) → (⟨S4x4x256x256, .f32⟩ : BufTy).Contents (Elt F)),
    StableHlo.unary main_v18 main_v20 (broadcastInDim S4x4x256x256 ![0, 1, 2, 3] bcast_S1x1x256x256_S4x4x256x256_0_1_2_3 : (⟨S1x1x256x256, .f32⟩ : BufTy).Contents (Elt F) → (⟨S4x4x256x256, .f32⟩ : BufTy).Contents (Elt F)),
    StableHlo.binary main_v19 main_v20 main_v21 (mulf : (⟨S4x4x256x256, .f32⟩ : BufTy).Contents (Elt F) → (⟨S4x4x256x256, .f32⟩ : BufTy).Contents (Elt F) → (⟨S4x4x256x256, .f32⟩ : BufTy).Contents (Elt F)),
    StableHlo.binary main_v16 main_v21 main_v22 (addf : (⟨S4x4x256x256, .f32⟩ : BufTy).Contents (Elt F) → (⟨S4x4x256x256, .f32⟩ : BufTy).Contents (Elt F) → (⟨S4x4x256x256, .f32⟩ : BufTy).Contents (Elt F)),
    StableHlo.unary main_v22 main_v23 ((transpose S4x256x4x256 [0, 2, 1, 3] · transposes_S4x4x256x256_S4x256x4x256_0_2_1_3) : (⟨S4x4x256x256, .f32⟩ : BufTy).Contents (Elt F) → (⟨S4x256x4x256, .f32⟩ : BufTy).Contents (Elt F)),
    StableHlo.reshape main_v23 main_v24 rfl shapeCasts_S4x256x4x256_S1024x1024,
    StableHlo.binary main_arg0 main_v24 main_v25 ((fun l r => Host.dotGeneral dot_S8x4096x1024_S1024x1024_S8x4096x1024_2_1_01_0_n_n none l r) : (⟨S8x4096x1024, .f32⟩ : BufTy).Contents (Elt F) → (⟨S1024x1024, .f32⟩ : BufTy).Contents (Elt F) → (⟨S8x4096x1024, .f32⟩ : BufTy).Contents (Elt F)),
    StableHlo.unary main_arg5 main_v26 (broadcastInDim S1x1x1024 ![2] bcast_S1024_S1x1x1024_2 : (⟨S1024, .f32⟩ : BufTy).Contents (Elt F) → (⟨S1x1x1024, .f32⟩ : BufTy).Contents (Elt F)),
    StableHlo.unary main_v26 main_v27 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    StableHlo.binary main_v25 main_v27 main_v28 (addf : (⟨S8x4096x1024, .f32⟩ : BufTy).Contents (Elt F) → (⟨S8x4096x1024, .f32⟩ : BufTy).Contents (Elt F) → (⟨S8x4096x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨StableHlo.nullary_bufs_sub .., StableHlo.nullary_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.unary_bufs_sub .., StableHlo.reshape_bufs_sub .., StableHlo.binary_bufs_sub .., StableHlo.unary_bufs_sub .., StableHlo.unary_bufs_sub .., StableHlo.binary_bufs_sub ..⟩

/-- The weight the reference assembles from its four blocks and its four sign tables. -/
abbrev refWeight (R I J K : FVec F S256x256 .f32) : FVec F S1024x1024 .f32 :=
  Cert.QuatLinear.weight bcast_S4x4_S4x4x1x1_0_1 bcast_S256x256_S1x1x256x256_2_3 bcast_S4x4x1x1_S4x4x256x256_0_1_2_3
    bcast_S1x1x256x256_S4x4x256x256_0_1_2_3 transposes_S4x4x256x256_S4x256x4x256_0_2_1_3 shapeCasts_S4x256x4x256_S1024x1024
    (fun i => FloatOps.ofBits .f32 (lit0 (S4x4.rowMajor i))) (fun i => FloatOps.ofBits .f32 (lit1 (S4x4.rowMajor i)))
    (fun i => FloatOps.ofBits .f32 (lit2 (S4x4.rowMajor i))) (fun i => FloatOps.ofBits .f32 (lit3 (S4x4.rowMajor i))) R I J K

/-- The reference's result as a term of its arguments: the host contraction of x against the weight, plus the bias
    broadcast to the result's shape. -/
abbrev refResult (x : FVec F S8x4096x1024 .f32) (R I J K : FVec F S256x256 .f32) (b : FVec F S1024 .f32) : FVec F S8x4096x1024 .f32 :=
  addf (Host.dotGeneral dot_S8x4096x1024_S1024x1024_S8x4096x1024_2_1_01_0_n_n none x (refWeight R I J K))
    (broadcastInDim S8x4096x1024 ![0, 1, 2] bcast_S1x1x1024_S8x4096x1024_0_1_2 (broadcastInDim S1x1x1024 ![2] bcast_S1024_S1x1x1024_2 b))

/-- From any memory with zero counters every weakly fair execution of @main terminates, the result buffer at
    `refResult` of the launch contents of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v28).trans (by after_results_simp; rfl),
      (h c main_arg0).trans (by after_results),
      (h c main_arg1).trans (by after_results),
      (h c main_arg2).trans (by after_results),
      (h c main_arg3).trans (by after_results),
      (h c main_arg4).trans (by after_results),
      (h c main_arg5).trans (by after_results)⟩)
    (run_seq scopedRefs_eq scopedSems_eq defs main (fun _ => ops) main_eq (fun _ => ops_sub) m ρ)

end Cert.ReferenceIdeal.HostRun

end
-- ==== Proof.RefValue.lean ====
/-
  The reference's result, read entry by entry. The host contraction sums, over the one contracted axis, x at
  (b, s, k) times the weight at (o, k): the left operand keeps its two free axes and gives up its last, the right
  operand keeps its row axis and gives up its column axis. The bias, first given two unit axes and then spread over
  batch and position, reads bias[o] everywhere. So entry (b, s, o) is the linear layer's.
-/
import proofs.«165513_j24223615550298_1_alg».proof.Proof.RefRun
import Idealize.ShloMosaic.PureOps.Ideal.Laws
import Idealize.ShloMosaic.Lib.Pipeline.Value

noncomputable section

namespace Cert.ReferenceIdeal.HostValue

open Cert.ReferenceIdeal Cert.ReferenceIdeal.Facts₀ Cert.ReferenceIdeal.HostRun Idealize.ShloMosaic Idealize.ShloMosaic.ValueIdx

/-- Left operand, axis 0: the result's batch coordinate. -/
theorem lhs_0 (i : S8x4096x1024.Idx) (q : dot_S8x4096x1024_S1024x1024_S8x4096x1024_2_1_01_0_n_n.contr.Idx) :
    (dot_S8x4096x1024_S1024x1024_S8x4096x1024_2_1_01_0_n_n.lhsIdx i q 0).val = (i 0).val := by
  unfold DotDims.lhsIdx
  rw [dif_neg (show ¬(0 : Fin S8x4096x1024.rank) ∈ dot_S8x4096x1024_S1024x1024_S8x4096x1024_2_1_01_0_n_n.lhsBatch by decide), dif_pos (show (0 : Fin S8x4096x1024.rank) ∈ dot_S8x4096x1024_S1024x1024_S8x4096x1024_2_1_01_0_n_n.lhsNonContracting by decide)]
  rfl
/-- Left operand, axis 1: the result's position coordinate. -/
theorem lhs_1 (i : S8x4096x1024.Idx) (q : dot_S8x4096x1024_S1024x1024_S8x4096x1024_2_1_01_0_n_n.contr.Idx) :
    (dot_S8x4096x1024_S1024x1024_S8x4096x1024_2_1_01_0_n_n.lhsIdx i q 1).val = (i 1).val := by
  unfold DotDims.lhsIdx
  rw [dif_neg (show ¬(1 : Fin S8x4096x1024.rank) ∈ dot_S8x4096x1024_S1024x1024_S8x4096x1024_2_1_01_0_n_n.lhsBatch by decide), dif_pos (show (1 : Fin S8x4096x1024.rank) ∈ dot_S8x4096x1024_S1024x1024_S8x4096x1024_2_1_01_0_n_n.lhsNonContracting by decide)]
  rfl
/-- Left operand, axis 2: the contracted coordinate. -/
theorem lhs_2 (i : S8x4096x1024.Idx) (q : dot_S8x4096x1024_S1024x1024_S8x4096x1024_2_1_01_0_n_n.contr.Idx) :
    (dot_S8x4096x1024_S1024x1024_S8x4096x1024_2_1_01_0_n_n.lhsIdx i q 2).val = (q ⟨0, by decide⟩).val :=
  dot_S8x4096x1024_S1024x1024_S8x4096x1024_2_1_01_0_n_n.lhsIdx_val_of_single rfl i q
/-- Right operand, axis 0: the result's feature coordinate. -/
theorem rhs_0 (i : S8x4096x1024.Idx) (q : dot_S8x4096x1024_S1024x1024_S8x4096x1024_2_1_01_0_n_n.contr.Idx) :
    (dot_S8x4096x1024_S1024x1024_S8x4096x1024_2_1_01_0_n_n.rhsIdx i q 0).val = (i 2).val := by
  unfold DotDims.rhsIdx
  rw [dif_neg (show ¬(0 : Fin S1024x1024.rank) ∈ dot_S8x4096x1024_S1024x1024_S8x4096x1024_2_1_01_0_n_n.rhsBatch by decide), dif_pos (show (0 : Fin S1024x1024.rank) ∈ dot_S8x4096x1024_S1024x1024_S8x4096x1024_2_1_01_0_n_n.rhsNonContracting by decide)]
  rfl
/-- Right operand, axis 1: the contracted coordinate. -/
theorem rhs_1 (i : S8x4096x1024.Idx) (q : dot_S8x4096x1024_S1024x1024_S8x4096x1024_2_1_01_0_n_n.contr.Idx) :
    (dot_S8x4096x1024_S1024x1024_S8x4096x1024_2_1_01_0_n_n.rhsIdx i q 1).val = (q ⟨0, by decide⟩).val :=
  dot_S8x4096x1024_S1024x1024_S8x4096x1024_2_1_01_0_n_n.rhsIdx_val_of_single rfl i q

/-- The host contraction at (p, q, o): the sum over k of x[p, q, k] W[o, k]. -/
theorem dot_apply (x : FVec Ideal S8x4096x1024 .f32) (W : FVec Ideal S1024x1024 .f32) (p : Fin 8) (q : Fin 4096) (o : Fin 1024) :
    Host.dotGeneral dot_S8x4096x1024_S1024x1024_S8x4096x1024_2_1_01_0_n_n none x W (ix3 p q o) = ∑ k : Fin 1024, x (ix3 p q k) * W (ix2 o k) := by
  simp only [Host.dotGeneral]
  rw [Ideal.dotGeneral_apply, ← Equiv.sum_comp (contrEquiv1 dot_S8x4096x1024_S1024x1024_S8x4096x1024_2_1_01_0_n_n 1024 rfl rfl).symm]
  refine Finset.sum_congr rfl fun k _ => ?_
  have hk := contrEquiv1_symm_val dot_S8x4096x1024_S1024x1024_S8x4096x1024_2_1_01_0_n_n 1024 rfl rfl k
  have el : dot_S8x4096x1024_S1024x1024_S8x4096x1024_2_1_01_0_n_n.lhsIdx (ix3 p q o) ((contrEquiv1 dot_S8x4096x1024_S1024x1024_S8x4096x1024_2_1_01_0_n_n 1024 rfl rfl).symm k) = ix3 p q k := funext fun a => Fin.ext (by
    match a with
    | ⟨0, _⟩ => exact lhs_0 _ _
    | ⟨1, _⟩ => exact lhs_1 _ _
    | ⟨2, _⟩ => exact (lhs_2 _ _).trans hk)
  have er : dot_S8x4096x1024_S1024x1024_S8x4096x1024_2_1_01_0_n_n.rhsIdx (ix3 p q o) ((contrEquiv1 dot_S8x4096x1024_S1024x1024_S8x4096x1024_2_1_01_0_n_n 1024 rfl rfl).symm k) = ix2 o k := funext fun a => Fin.ext (by
    match a with
    | ⟨0, _⟩ => exact rhs_0 _ _
    | ⟨1, _⟩ => exact (rhs_1 _ _).trans hk)
  rw [el, er]

/-- The bias spread to the result's shape reads bias[o] at (p, q, o). -/
theorem bias_apply (b : FVec Ideal S1024 .f32) (p : Fin 8) (q : Fin 4096) (o : Fin 1024) :
    broadcastInDim S8x4096x1024 ![0, 1, 2] bcast_S1x1x1024_S8x4096x1024_0_1_2 (broadcastInDim S1x1x1024 ![2] bcast_S1024_S1x1x1024_2 b) (ix3 p q o)
      = b (ix1 o) := by
  refine (broadcastInDim_apply _ _ _ (ix3 p q o) (ix3 (0 : Fin 1) (0 : Fin 1) o) (fun a => by
    match a with
    | ⟨0, _⟩ => rfl
    | ⟨1, _⟩ => rfl
    | ⟨2, _⟩ => rfl)).trans ?_
  exact broadcastInDim_apply _ _ _ (ix3 (0 : Fin 1) (0 : Fin 1) o) (ix1 o) (fun a => by
    match a with
    | ⟨0, _⟩ => rfl)

/-- The reference's result term is the linear layer of its arguments over its own weight. -/
theorem refResult_eq (x : FVec Ideal S8x4096x1024 .f32) (R I J K : FVec Ideal S256x256 .f32) (b : FVec Ideal S1024 .f32) :
    refResult x R I J K b = Cert.QuatLinear.lin x (refWeight R I J K) b := by
  funext i
  obtain ⟨p, q, o, rfl⟩ : ∃ (p : Fin 8) (q : Fin 4096) (o : Fin 1024), i = ix3 p q o := ⟨i 0, i 1, i 2, eq_ix3 i⟩
  show Host.dotGeneral dot_S8x4096x1024_S1024x1024_S8x4096x1024_2_1_01_0_n_n none x (refWeight R I J K) (ix3 p q o) + _ = Cert.QuatLinear.linAt x (refWeight R I J K) b p q o
  rw [dot_apply, bias_apply]
  rfl

end Cert.ReferenceIdeal.HostValue

end
-- ==== Proof.lean ====
/-
  A quaternion linear layer: both programs assemble one 1024 x 1024 weight W from four 256 x 256 blocks and four
  4 x 4 sign tables by the same chain of host operations, and apply it to x : 8 x 4096 x 1024 with a bias.

  The kernel program reshapes x to 32768 rows, transposes W, and runs a 32-point grid; each point multiplies a
  1024-row block of x by the transposed weight (the bf16 roundings of the operands are the identity over the extended
  reals) and adds the bias row; the 32 blocks tile the result, which is reshaped back. The reference contracts x's last
  axis against W's column axis on the host and adds the broadcast bias. At every entry (b, s, o) both are
      sum over k of x[b, s, k] W[o, k], plus bias[o],
  the same sum term by term, so no finiteness of the inputs is used: the precondition is never opened. W itself is
  never opened either; the two programs' weights are one term once their literal sign tables are seen to agree.

  The three frames: the kernel programs' are the generated frame certificates; the reference's is its run with the
  result dropped. The ideal pass rewrote nothing, so the idealization claim is trivial.
-/
import proofs.«165513_j24223615550298_1_alg».proof.Defs
import proofs.«165513_j24223615550298_1_alg».proof.Proof.Gen.Kernel
import proofs.«165513_j24223615550298_1_alg».proof.Proof.Gen.Kernel.Skeleton
import proofs.«165513_j24223615550298_1_alg».proof.Proof.Gen.Kernel.Launch
import proofs.«165513_j24223615550298_1_alg».proof.Proof.Gen.Kernel.Points
import proofs.«165513_j24223615550298_1_alg».proof.Proof.Gen.Kernel.Frame
import proofs.«165513_j24223615550298_1_alg».proof.Proof.Gen.KernelIdeal
import proofs.«165513_j24223615550298_1_alg».proof.Proof.Gen.KernelIdeal.Skeleton
import proofs.«165513_j24223615550298_1_alg».proof.Proof.Gen.KernelIdeal.Launch
import proofs.«165513_j24223615550298_1_alg».proof.Proof.Gen.KernelIdeal.Points
import proofs.«165513_j24223615550298_1_alg».proof.Proof.Gen.KernelIdeal.Frame
import proofs.«165513_j24223615550298_1_alg».proof.Proof.Gen.ReferenceIdeal
import proofs.«165513_j24223615550298_1_alg».proof.Proof.Gen.Pre_finite_inputs
import proofs.«165513_j24223615550298_1_alg».proof.Proof.KerValue
import proofs.«165513_j24223615550298_1_alg».proof.Proof.RefValue
import Idealize.ShloMosaic.Adequacy
import Idealize.ShloMosaic.Init

noncomputable section

namespace Cert.Proof

open Idealize.ShloMosaic Idealize.SL.Sem

/-- The sign tables of the two programs are the same sixteen words each. -/
theorem lit0_eq : Cert.KernelIdeal.lit0 = Cert.ReferenceIdeal.lit0 := funext (by decide)
theorem lit1_eq : Cert.KernelIdeal.lit1 = Cert.ReferenceIdeal.lit1 := funext (by decide)
theorem lit2_eq : Cert.KernelIdeal.lit2 = Cert.ReferenceIdeal.lit2 := funext (by decide)
theorem lit3_eq : Cert.KernelIdeal.lit3 = Cert.ReferenceIdeal.lit3 := funext (by decide)

/-- So the two programs assemble the same weight from the same blocks. -/
theorem weight_agree (R I J K : FVec Ideal Cert.KernelIdeal.S256x256 .f32) :
    Cert.KernelIdeal.Result.kerWeight R I J K = Cert.ReferenceIdeal.HostRun.refWeight R I J K := by
  unfold Cert.KernelIdeal.Result.kerWeight Cert.ReferenceIdeal.HostRun.refWeight
  rw [lit0_eq, lit1_eq, lit2_eq, lit3_eq]

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.HostRun.run (F := Ideal) m ρ)

theorem preserves : Cert.preserves_Kernel_KernelIdeal := trivial

/-- From memories agreeing on the arguments both programs end with the linear layer of those arguments in their
    result buffers: the kernel program by its region's blocks and the reshapes around them, the reference by reading
    its contraction and its broadcast at an entry. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.HostRun.run (F := Ideal) m' ρ')
  rw [(hagree c).1, (hagree c).2.1, (hagree c).2.2.1, (hagree c).2.2.2.1, (hagree c).2.2.2.2.1, (hagree c).2.2.2.2.2,
    Cert.ReferenceIdeal.HostValue.refResult_eq, weight_agree]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
